-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S256x512 : Shape := ⟨2, ![256, 512]⟩
abbrev S256 : Shape := ⟨1, ![256]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S2048x512 .f32) (main_arg1 : FVec F S256x512 .f32) (main_arg2 : FVec F S256 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S2048x512 : Shape := ⟨2, ![2048, 512]⟩
abbrev S256x512 : Shape := ⟨2, ![256, 512]⟩
abbrev S256 : Shape := ⟨1, ![256]⟩
abbrev S1x256 : Shape := ⟨2, ![1, 256]⟩
abbrev S2048x256 : Shape := ⟨2, ![2048, 256]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S128x1x128 : Shape := ⟨3, ![128, 1, 128]⟩
abbrev S1x256x128 : Shape := ⟨3, ![1, 256, 128]⟩
abbrev S128x256x128 : Shape := ⟨3, ![128, 256, 128]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S2048x256, .f32⟩
  | .local _ .vmem, ⟨0, _⟩ => ⟨S128x512, .f32⟩
  | .local _ .vmem, ⟨1, _⟩ => ⟨S128x512, .f32⟩
  | .local _ .vmem, ⟨2, _⟩ => ⟨S256x512, .f32⟩
  | .local _ .vmem, ⟨3, _⟩ => ⟨S1x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32_4 : BitVec 32 := 0#32
  let c0_i32 : BitVec 32 := 0#32
  let c1_i32 : BitVec 32 := 1#32
  let v8 : BitVec 32 := Scalar.muli c0_i32 c1_i32
  let v9 : BitVec 32 := Scalar.addi c0_i32_4 v8
  let c128_i32 : BitVec 32 := 128#32
  let v10 : BitVec 32 := Scalar.muli v9 c128_i32
  v10
def k0_off1 (c0_i32 : BitVec 32) : Fin 2 → Nat :=
  let c0_5 : Index := 0#32
  let c0_i32_4 : BitVec 32 := 0#32
  let c1_i32 : BitVec 32 := 1#32
  let v8 : BitVec 32 := Scalar.muli c0_i32 c1_i32
  let v9 : BitVec 32 := Scalar.addi c0_i32_4 v8
  let c128_i32 : BitVec 32 := 128#32
  let v10 : BitVec 32 := Scalar.muli v9 c128_i32
  let v11 : BitVec 32 := v10
  let v12 : Index := Scalar.indexCast v11
  ![0, v12.toNat]
def k0_off2 (c0_i32 : BitVec 32) : Fin 2 → Nat :=
  let c0_6 : Index := 0#32
  let c0_i32_4 : BitVec 32 := 0#32
  let c1_i32 : BitVec 32 := 1#32
  let v8 : BitVec 32 := Scalar.muli c0_i32 c1_i32
  let v9 : BitVec 32 := Scalar.addi c0_i32_4 v8
  let c128_i32 : BitVec 32 := 128#32
  let v10 : BitVec 32 := Scalar.muli v9 c128_i32
  let v11 : BitVec 32 := v10
  let v14 : Index := Scalar.indexCast v11
  ![0, v14.toNat]
def k0_mult2 : BitVec 32 :=
  let c0_i32_19 : BitVec 32 := 0#32
  let c1_i32_17 : BitVec 32 := 1#32
  let c1_i32_18 : BitVec 32 := 1#32
  let v33 : BitVec 32 := Scalar.muli c1_i32_17 c1_i32_18
  let v34 : BitVec 32 := Scalar.addi c0_i32_19 v33
  let c128_i32_20 : BitVec 32 := 128#32
  let v35 : BitVec 32 := Scalar.muli v34 c128_i32_20
  v35
def k0_mult3 : BitVec 32 :=
  let c0_i32_34 : BitVec 32 := 0#32
  let c2_i32 : BitVec 32 := 2#32
  let c1_i32_33 : BitVec 32 := 1#32
  let v58 : BitVec 32 := Scalar.muli c2_i32 c1_i32_33
  let v59 : BitVec 32 := Scalar.addi c0_i32_34 v58
  let c128_i32_35 : BitVec 32 := 128#32
  let v60 : BitVec 32 := Scalar.muli v59 c128_i32_35
  v60
def k0_mult4 : BitVec 32 :=
  let c0_i32_49 : BitVec 32 := 0#32
  let c3_i32 : BitVec 32 := 3#32
  let c1_i32_48 : BitVec 32 := 1#32
  let v83 : BitVec 32 := Scalar.muli c3_i32 c1_i32_48
  let v84 : BitVec 32 := Scalar.addi c0_i32_49 v83
  let c128_i32_50 : BitVec 32 := 128#32
  let v85 : BitVec 32 := Scalar.muli v84 c128_i32_50
  v85
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  h_S128x128 : 0 < S128x128.numel
  h_S256x128 : 0 < S256x128.numel
  shapeCasts_S128x128_S128x1x128 : S128x128.ShapeCasts S128x1x128
  shapeCasts_S256x128_S1x256x128 : S256x128.ShapeCasts S1x256x128
  broadcasts_S128x1x128_S128x256x128 : S128x1x128.Broadcasts S128x256x128
  broadcasts_S1x256x128_S128x256x128 : S1x256x128.Broadcasts S128x256x128
  reduces_S128x256x128_S128x256 : S128x256x128.Reduces [2] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  hrank0 : 0 < grid0.rank
  k0_mult1_dvd : 128 ∣ k0_mult1.toNat
  k0_off1_inb : ∀ (r : Fin 4), ∀ a, (k0_off1 (BitVec.ofNat 32 r.val)) a + S128x128.size a ≤ S128x512.size a
  k0_off2_inb : ∀ (r : Fin 4), ∀ a, (k0_off2 (BitVec.ofNat 32 r.val)) a + S256x128.size a ≤ S256x512.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S2048x512.size a
  hwx0_0 : ∀ i : grid0.Coords, EltTy.bits .f32 = 32 ∨ (Rect.block (s := S2048x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S2048x256.size a
  hwx0_3 : ∀ i : grid0.Coords, EltTy.bits .f32 = 32 ∨ (Rect.block (s := S2048x256) S128x256.size (cc0_transform_3 i) (hinb0_3 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S256x512 : Shape := ⟨2, ![256, 512]⟩
abbrev S256 : Shape := ⟨1, ![256]⟩
abbrev S2048x512x1 : Shape := ⟨3, ![2048, 512, 1]⟩
abbrev S512x256 : Shape := ⟨2, ![512, 256]⟩
abbrev S1x512x256 : Shape := ⟨3, ![1, 512, 256]⟩
abbrev S2048x512x256 : Shape := ⟨3, ![2048, 512, 256]⟩
abbrev S_ : Shape := ⟨0, ![]⟩
abbrev S2048x256 : Shape := ⟨2, ![2048, 256]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256, .f32⟩
  | .hbm, ⟨3, _⟩ => ⟨S2048x512x1, .f32⟩
  | .hbm, ⟨4, _⟩ => ⟨S512x256, .f32⟩
  | .hbm, ⟨5, _⟩ => ⟨S1x512x256, .f32⟩
  | .hbm, ⟨6, _⟩ => ⟨S2048x512x256, .f32⟩
  | .hbm, ⟨7, _⟩ => ⟨S2048x512x256, .f32⟩
  | .hbm, ⟨8, _⟩ => ⟨S2048x512x256, .f32⟩
  | .hbm, ⟨9, _⟩ => ⟨S_, .f32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S1x256, .f32⟩
  | .hbm, ⟨15, _⟩ => ⟨S2048x256, .f32⟩
  | .hbm, ⟨16, _⟩ => ⟨S2048x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S2048x512_S2048x512x1_0_1 : S2048x512.BroadcastsInDim S2048x512x1 (![0, 1] : Fin 2 → Fin S2048x512x1.rank)
  transposes_S256x512_S512x256_1_0 : S256x512.Transposes [1, 0] S512x256
  bcast_S512x256_S1x512x256_1_2 : S512x256.BroadcastsInDim S1x512x256 (![1, 2] : Fin 2 → Fin S1x512x256.rank)
  bcast_S2048x512x1_S2048x512x256_0_1_2 : S2048x512x1.BroadcastsInDim S2048x512x256 (![0, 1, 2] : Fin 3 → Fin S2048x512x256.rank)
  bcast_S1x512x256_S2048x512x256_0_1_2 : S1x512x256.BroadcastsInDim S2048x512x256 (![0, 1, 2] : Fin 3 → Fin S2048x512x256.rank)
  reducesTo_S2048x512x256_S2048x256_d1 : S2048x512x256.ReducesTo [1] S2048x256
  h_S_ : 0 < S_.numel
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)

variable [Facts₀]

class Facts : Prop extends Facts₀ where

variable [Facts]
-- ==== Proof.Extremum.lean ====
/-
  The order facts both sides of this certificate rest on, over the extended reals and free of any program.

  A maximum taken from -∞ over a finite family is the family's supremum, and a minimum taken from +∞ its
  infimum. The 512 contraction positions split into four runs of 128 (position 128·c + r); the supremum over
  all 512 is the maximum, taken run after run from -∞, of the four runs' suprema, and dually for the infimum.
  Only the lattice laws are used: no finiteness of the entries.
-/
import Idealize.ShloMosaic.PureOps.Ideal.Laws
import Mathlib.Order.CompleteLattice.Finset

namespace Cert.Extremum

open Idealize.ShloMosaic

/-- The f32 pattern of -∞ is the bottom of the extended reals, -/
theorem negInf : Ideal.ofBits .f32 0xFF800000#32 = (⊥ : EReal) := by simp [Ideal.ofBits, Ideal.ieee]

/-- and that of +∞ the top. -/
theorem posInf : Ideal.ofBits .f32 0x7F800000#32 = (⊤ : EReal) := by simp [Ideal.ofBits, Ideal.ieee]

/-- A maximum folded from -∞ over a finite family is its supremum. -/
theorem fold_max_bot {ι : Type} [Fintype ι] (g : ι → EReal) :
    (Finset.univ : Finset ι).fold max (⊥ : EReal) g = ⨆ k, g k := by
  apply le_antisymm
  · exact (Finset.fold_max_le _).2 ⟨bot_le, fun k _ => le_iSup g k⟩
  · exact iSup_le fun k => (Finset.le_fold_max _).2 (Or.inr ⟨k, Finset.mem_univ _, le_rfl⟩)

/-- A minimum folded from +∞ over a finite family is its infimum. -/
theorem fold_min_top {ι : Type} [Fintype ι] (g : ι → EReal) :
    (Finset.univ : Finset ι).fold min (⊤ : EReal) g = ⨅ k, g k := by
  apply le_antisymm
  · exact le_iInf fun k => (Finset.fold_min_le _).2 (Or.inr ⟨k, Finset.mem_univ _, le_rfl⟩)
  · exact (Finset.le_fold_min _).2 ⟨le_top, fun k _ => iInf_le g k⟩

/-- So a maximum folded from the f32 pattern of -∞ is the supremum, -/
theorem fold_max_negInf {ι : Type} [Fintype ι] (g : ι → EReal) :
    (Finset.univ : Finset ι).fold max (Ideal.ofBits .f32 0xFF800000#32 : EReal) g = ⨆ k, g k := by
  rw [negInf]; exact fold_max_bot g

/-- and a minimum folded from the pattern of +∞ the infimum. -/
theorem fold_min_posInf {ι : Type} [Fintype ι] (g : ι → EReal) :
    (Finset.univ : Finset ι).fold min (Ideal.ofBits .f32 0x7F800000#32 : EReal) g = ⨅ k, g k := by
  rw [posInf]; exact fold_min_top g

/-- Position `128·c + r` of the 512: run `c`, place `r`. -/
def pos (c : Fin 4) (r : Fin 128) : Fin 512 := ⟨128 * c.val + r.val, by have := c.isLt; have := r.isLt; omega⟩

/-- Every position lies in one of the four runs. -/
theorem pos_cases (k : Fin 512) : ∃ (c : Fin 4) (r : Fin 128), k = pos c r :=
  ⟨⟨k.val / 128, by have := k.isLt; omega⟩, ⟨k.val % 128, Nat.mod_lt _ (by decide)⟩,
    Fin.ext (by show k.val = 128 * (k.val / 128) + k.val % 128; omega)⟩

/-- The supremum over the 512 positions is the running maximum, from -∞, of the four runs' suprema. -/
theorem iSup_runs (f : Fin 512 → EReal) :
    max (max (max (max (⊥ : EReal) (⨆ r, f (pos 0 r))) (⨆ r, f (pos 1 r))) (⨆ r, f (pos 2 r))) (⨆ r, f (pos 3 r))
      = ⨆ k, f k := by
  apply le_antisymm
  · exact max_le (max_le (max_le (max_le bot_le (iSup_le fun r => le_iSup f _)) (iSup_le fun r => le_iSup f _))
      (iSup_le fun r => le_iSup f _)) (iSup_le fun r => le_iSup f _)
  · refine iSup_le fun k => ?_
    obtain ⟨c, r, rfl⟩ := pos_cases k
    match c with
    | ⟨0, _⟩ => exact le_max_of_le_left (le_max_of_le_left (le_max_of_le_left (le_max_of_le_right (le_iSup (fun r => f (pos 0 r)) r))))
    | ⟨1, _⟩ => exact le_max_of_le_left (le_max_of_le_left (le_max_of_le_right (le_iSup (fun r => f (pos 1 r)) r)))
    | ⟨2, _⟩ => exact le_max_of_le_left (le_max_of_le_right (le_iSup (fun r => f (pos 2 r)) r))
    | ⟨3, _⟩ => exact le_max_of_le_right (le_iSup (fun r => f (pos 3 r)) r)

/-- The infimum over the 512 positions is the running minimum, from +∞, of the four runs' infima. -/
theorem iInf_runs (f : Fin 512 → EReal) :
    min (min (min (min (⊤ : EReal) (⨅ r, f (pos 0 r))) (⨅ r, f (pos 1 r))) (⨅ r, f (pos 2 r))) (⨅ r, f (pos 3 r))
      = ⨅ k, f k := by
  apply le_antisymm
  · refine le_iInf fun k => ?_
    obtain ⟨c, r, rfl⟩ := pos_cases k
    match c with
    | ⟨0, _⟩ => exact min_le_of_left_le (min_le_of_left_le (min_le_of_left_le (min_le_of_right_le (iInf_le (fun r => f (pos 0 r)) r))))
    | ⟨1, _⟩ => exact min_le_of_left_le (min_le_of_left_le (min_le_of_right_le (iInf_le (fun r => f (pos 1 r)) r)))
    | ⟨2, _⟩ => exact min_le_of_left_le (min_le_of_right_le (iInf_le (fun r => f (pos 2 r)) r))
    | ⟨3, _⟩ => exact min_le_of_right_le (iInf_le (fun r => f (pos 3 r)) r)
  · exact le_min (le_min (le_min (le_min le_top (le_iInf fun r => iInf_le f _)) (le_iInf fun r => iInf_le f _))
      (le_iInf fun r => iInf_le f _)) (le_iInf fun r => iInf_le f _)

end Cert.Extremum
-- ==== Proof.LibOuter.lean ====
/-
  The outer layout of two matrices along a shared last axis, read at an index, for every extent and element type:
  an `[a, c]` array reshaped to `[a, 1, c]` and broadcast along the middle axis to `[a, b, c]` holds, at `(i, j, k)`,
  the array's entry `(i, k)`; a `[b, c]` array reshaped to `[1, b, c]` and broadcast along the first axis to
  `[a, b, c]` holds there the entry `(j, k)`. (The cast `[b, c] → [1, b, c]` itself is the library's
  `shapeCast_ab_1ab_apply`.) Beside them: a load through the whole-shape rectangle of what a list of stores left,
  when the LAST store went through that rectangle, reads that store's value whatever came before; and a minimum
  reduction over one axis as the fold of `min` over that axis's coordinates, the mirror of the library's
  `multiReduction_maximumf_single`.
-/
import Idealize.ShloMosaic.Lib.Pipeline.Value
import Idealize.ShloMosaic.Lib.ValueIdx
import Idealize.ShloMosaic.Lib.ValueLayout
import Idealize.ShloMosaic.PureOps.Ideal.Laws

namespace Cert.LibOuter

open Idealize.ShloMosaic Idealize.ShloMosaic.ValueIdx

variable {α : Type}

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- So the two matrices laid out against each other: at `(i, j, k)` the first gives its entry `(i, k)`, -/
theorem outerLeft_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) := by
  rw [broadcastTo_a1c_abc_apply, shapeCast_ab_a1b_apply]

/-- and the second its entry `(j, k)`. -/
theorem outerRight_apply {a b c : ℕ} (y : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ y h) h' (ix3 i j k) = y (ix2 j k) := by
  rw [broadcastTo_1bc_abc_apply, shapeCast_ab_1ab_apply]

/-- A load through the whole-shape rectangle at zero offsets, of what a list of stores left whose LAST store went
    through that rectangle, reads that store's value: the earlier stores are all overwritten. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- A float minimum reduction over one axis, read over the extended reals: the fold of `min` from the accumulator's
    value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibOuter
-- ==== Proof.Block.lean ====
/-
  What the kernel's body leaves in the output block at one grid point, as a function of the point's three input
  blocks: x (128 rows of 512), w (256 rows of 512) and the bias row (1 × 256).

  The body keeps two 128 × 256 scratch blocks. It fills the first with -∞ and the second with +∞, then visits the
  512 contraction positions in four runs of 128: for each run it forms the products x[p, k] · w[q, k] over the run,
  takes their maximum and minimum over k, and folds them into the scratches by `max` and `min`. At the end it
  stores (first scratch) + (second scratch) + bias[q]. Over the extended reals the running maximum from -∞ of the
  four runs' suprema is the supremum over all 512 positions, and dually for the minimum, so entry (p, q) of the block is

      sup_k x[p, k] · w[q, k]  +  inf_k x[p, k] · w[q, k]  +  bias[q].
-/
import proofs.«105874_j64785286692872_1_alg».proof.Proof.Gen.KernelIdeal.Frame
import proofs.«105874_j64785286692872_1_alg».proof.Proof.Extremum
import proofs.«105874_j64785286692872_1_alg».proof.Proof.LibOuter
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen Cert.Extremum Cert.LibOuter

variable {F : FTy → Type} [FloatOps F]

theorem hz : (![0, 0] : Fin 2 → Nat) = fun _ => 0 := funext fun a => by fin_cases a <;> rfl

/-! ## The block as one term of the input blocks, at any float instance -/

/-- Run `c` of the x block: its columns 128·c … 128·c + 127. -/
def xRun (x0 : Vec F S128x512 .f32) (c : Fin 4) : Vec F S128x128 .f32 := fun y => x0 (ix2 (y 0) (pos c (y 1)))

/-- Run `c` of the w block: its columns 128·c … 128·c + 127. -/
def wRun (x1 : Vec F S256x512 .f32) (c : Fin 4) : Vec F S256x128 .f32 := fun y => x1 (ix2 (y 0) (pos c (y 1)))

/-- A load of 128 columns of the x block from column `o = 128·c` reads run `c`. -/
theorem ld_xRun (x0 : Vec F S128x512 .f32) (o : Nat) (c : Fin 4) (ho : o = 128 * c.val)
    (inb : ∀ a, (![0, o] : Fin 2 → Nat) a + (![128, 128] : Fin 2 → Nat) a ≤ S128x512.size a) :
    View.ld x0 (Rect.unit (s := S128x512) ![0, o] ![128, 128] inb) = xRun x0 c := by
  subst ho
  funext y
  unfold View.ld xRun
  refine congrArg x0 (funext fun a => Fin.ext ?_)
  match a with
  | ⟨0, _⟩ => show 0 + 1 * (y 0).val = (y 0).val; omega
  | ⟨1, _⟩ => show 128 * c.val + 1 * (y 1).val = 128 * c.val + (y 1).val; omega

/-- A load of 128 columns of the w block from column `o = 128·c` reads run `c`. -/
theorem ld_wRun (x1 : Vec F S256x512 .f32) (o : Nat) (c : Fin 4) (ho : o = 128 * c.val)
    (inb : ∀ a, (![0, o] : Fin 2 → Nat) a + (![256, 128] : Fin 2 → Nat) a ≤ S256x512.size a) :
    View.ld x1 (Rect.unit (s := S256x512) ![0, o] ![256, 128] inb) = wRun x1 c := by
  subst ho
  funext y
  unfold View.ld wRun
  refine congrArg x1 (funext fun a => Fin.ext ?_)
  match a with
  | ⟨0, _⟩ => show 0 + 1 * (y 0).val = (y 0).val; omega
  | ⟨1, _⟩ => show 128 * c.val + 1 * (y 1).val = 128 * c.val + (y 1).val; omega

/-- The first scratch after the four runs: the maximum folded run after run, from the -∞ fill. -/
def maxChain (x0 : Vec F S128x512 .f32) (x1 : Vec F S256x512 .f32) : Vec F S128x256 .f32 :=
  k0_pay17 (xRun x0 3) (wRun x1 3)
    (k0_pay14 (k0_pay11 (wRun x1 2)) (k0_pay12 (xRun x0 2))
      (k0_pay9 (xRun x0 1) (wRun x1 1) (k0_pay6 (xRun x0 0) (wRun x1 0) k0_pay3)))

/-- The second scratch after the four runs: the minimum folded run after run, from the +∞ fill. -/
def minChain (x0 : Vec F S128x512 .f32) (x1 : Vec F S256x512 .f32) : Vec F S128x256 .f32 :=
  k0_pay1 (k0_pay16 (xRun x0 3) (wRun x1 3))
    (k0_pay15 (k0_pay11 (wRun x1 2)) (k0_pay12 (xRun x0 2))
      (k0_pay10 (xRun x0 1) (wRun x1 1) (k0_pay7 (xRun x0 0) (wRun x1 0) k0_pay4)))

/-- What the body's run leaves in the output's staging block: its one covering store's value, every scratch
    load reading back the latest store to that scratch. -/
theorem out_eq (c : Dev nD) (i : grid0.Coords) (a1 : Memref sig .tc .vmem S128x512 .f32) (h1 : a1.IsWhole) (a2 : Memref sig .tc .vmem S256x512 .f32) (h2 : a2.IsWhole) (a3 : Memref sig .tc .vmem S1x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole)
    (x0 : Vec F S128x512 .f32) (x1 : Vec F S256x512 .f32) (x2 : Vec F S1x256 .f32) :
    out0_A_3 c i a1 h1 a2 h2 a3 h3 a4 h4 a5 h5 a6 h6 x0 x1 x2 = k0_pay2 (maxChain x0 x1) (minChain x0 x1) x2 := by
  unfold out0_A_3
  rw [View.read_writes_eq_canon _ _ _ (cover0_A_3 c i a1 h1 a2 h2 a3 h3 a4 h4 a5 h5 a6 h6 x0 x1 x2)]
  unfold kernelRun0_A
  dsimp only
  sl_unfold_words
  rw [View.canon_unit_zero hz]
  simp only [readCov_cons_whole (S := S128x256) _ hz, View.readCov_unit_zero (S := S128x256) _ hz, View.readAt_eq_ld,
    h1.read_unread, h2.read_unread, h3.read_unread, View.ld_unit_zero (S := S128x256) hz, View.ld_unit_zero (S := S1x256) hz]
  -- each load of 128 columns, from column 384, 256, 128, 0, is the run it starts
  erw [ld_xRun x0 384 3 rfl, ld_xRun x0 256 2 rfl, ld_xRun x0 128 1 rfl, ld_xRun x0 0 0 rfl,
    ld_wRun x1 384 3 rfl, ld_wRun x1 256 2 rfl, ld_wRun x1 128 1 rfl, ld_wRun x1 0 0 rfl]
  rfl

/-! ## The block read at an entry, over the extended reals -/

/-- The products of one run, laid out over (row of x, row of w, place in the run): at `(p, q, r)` the product of
    x's entry `(p, r)` and w's entry `(q, r)`. -/
theorem products_apply (a : Vec Ideal S128x128 .f32) (b : Vec Ideal S256x128 .f32)
    (h1 : S128x128.ShapeCasts S128x1x128) (h2 : S128x1x128.Broadcasts S128x256x128)
    (h3 : S256x128.ShapeCasts S1x256x128) (h4 : S1x256x128.Broadcasts S128x256x128)
    (p : Fin 128) (q : Fin 256) (r : Fin 128) :
    mulf (F := Ideal) (φ := .f32) (broadcastTo S128x256x128 (shapeCast S128x1x128 (a : S128x128.Idx → Ideal .f32) h1) h2)
      (broadcastTo S128x256x128 (shapeCast S1x256x128 (b : S256x128.Idx → Ideal .f32) h3) h4) (ix3 p q r) = a (ix2 p r) * b (ix2 q r) := by
  rw [mulf_apply, outerLeft_apply, outerRight_apply]

/-- The source index over `(p, q)` whose place in the run is `r` is `(p, q, r)`. -/
theorem lift_eq (h : S128x256x128.Reduces [2] S128x256) (p : Fin 128) (q : Fin 256) (r : Fin 128) :
    h.lift (ix2 p q) r = ix3 p q r := by
  funext a
  match a with
  | ⟨0, _⟩ => rfl
  | ⟨1, _⟩ => rfl
  | ⟨2, _⟩ => rfl

/-- A maximum over the places of a run, from -∞, folded into a running maximum: at `(p, q)` the larger of the
    running value and the supremum over the run. -/
theorem stepMax_apply (P : FVec Ideal S128x256x128 .f32) (acc : Vec Ideal S128x256 .f32)
    (h : S128x256x128.Reduces [2] S128x256) (hφ : FKind.Formats .f32) (hacc : (0xFF800000#32 : BitVec 32) = FKind.maximumf.neutral .f32 hφ)
    (hsc : S128x256.ShapeCasts S128x256) (p : Fin 128) (q : Fin 256) :
    shapeCast S128x256 (maximumf acc (multiReduction .maximumf [2] S128x256 P 0xFF800000#32 h hφ hacc)) hsc (ix2 p q)
      = max (acc (ix2 p q)) (⨆ r : Fin 128, P (ix3 p q r)) := by
  rw [shapeCast_self, maximumf_apply, Ideal.multiReduction_maximumf_single]
  exact congrArg (max _) ((fold_max_negInf _).trans (iSup_congr fun r => congrArg P (lift_eq h p q r)))

/-- The same for the minimum, from +∞: at `(p, q)` the smaller of the running value and the infimum over the run. -/
theorem stepMin_apply (P : FVec Ideal S128x256x128 .f32) (acc : Vec Ideal S128x256 .f32)
    (h : S128x256x128.Reduces [2] S128x256) (hφ : FKind.Formats .f32) (hacc : (0x7F800000#32 : BitVec 32) = FKind.minimumf.neutral .f32 hφ)
    (hsc : S128x256.ShapeCasts S128x256) (p : Fin 128) (q : Fin 256) :
    shapeCast S128x256 (minimumf acc (multiReduction .minimumf [2] S128x256 P 0x7F800000#32 h hφ hacc)) hsc (ix2 p q)
      = min (acc (ix2 p q)) (⨅ r : Fin 128, P (ix3 p q r)) := by
  rw [shapeCast_self, minimumf_apply, multiReduction_minimumf_single]
  exact congrArg (min _) ((fold_min_posInf _).trans (iInf_congr fun r => congrArg P (lift_eq h p q r)))

variable (a : Vec Ideal S128x128 .f32) (b : Vec Ideal S256x128 .f32) (acc : Vec Ideal S128x256 .f32)
  (p : Fin 128) (q : Fin 256)

/-- The four runs' product terms, each at `(p, q, r)`. -/
theorem prod0_apply (r : Fin 128) : k0_pay5 a b (ix3 p q r) = a (ix2 p r) * b (ix2 q r) := products_apply a b _ _ _ _ p q r
theorem prod1_apply (r : Fin 128) : k0_pay8 a b (ix3 p q r) = a (ix2 p r) * b (ix2 q r) := products_apply a b _ _ _ _ p q r
theorem prod2_apply (r : Fin 128) : k0_pay13 (k0_pay11 b) (k0_pay12 a) (ix3 p q r) = a (ix2 p r) * b (ix2 q r) :=
  products_apply a b Facts₀.shapeCasts_S128x128_S128x1x128 Facts₀.broadcasts_S128x1x128_S128x256x128
    Facts₀.shapeCasts_S256x128_S1x256x128 Facts₀.broadcasts_S1x256x128_S128x256x128 p q r
theorem prod3_apply (r : Fin 128) : k0_pay16 a b (ix3 p q r) = a (ix2 p r) * b (ix2 q r) := products_apply a b _ _ _ _ p q r

/-- The four updates of the running maximum, each at `(p, q)`. -/
theorem max0_apply : k0_pay6 a b acc (ix2 p q) = max (acc (ix2 p q)) (⨆ r : Fin 128, a (ix2 p r) * b (ix2 q r)) :=
  (stepMax_apply (k0_pay5 a b) acc _ _ _ _ p q).trans (by simp only [prod0_apply])
theorem max1_apply : k0_pay9 a b acc (ix2 p q) = max (acc (ix2 p q)) (⨆ r : Fin 128, a (ix2 p r) * b (ix2 q r)) :=
  (stepMax_apply (k0_pay8 a b) acc _ _ _ _ p q).trans (by simp only [prod1_apply])
theorem max2_apply : k0_pay14 (k0_pay11 b) (k0_pay12 a) acc (ix2 p q)
    = max (acc (ix2 p q)) (⨆ r : Fin 128, a (ix2 p r) * b (ix2 q r)) :=
  (stepMax_apply (k0_pay13 (k0_pay11 b) (k0_pay12 a)) acc _ _ _ _ p q).trans (by simp only [prod2_apply])
theorem max3_apply : k0_pay17 a b acc (ix2 p q) = max (acc (ix2 p q)) (⨆ r : Fin 128, a (ix2 p r) * b (ix2 q r)) :=
  (stepMax_apply (k0_pay16 a b) acc _ _ _ _ p q).trans (by simp only [prod3_apply])

/-- The four updates of the running minimum, each at `(p, q)`. -/
theorem min0_apply : k0_pay7 a b acc (ix2 p q) = min (acc (ix2 p q)) (⨅ r : Fin 128, a (ix2 p r) * b (ix2 q r)) :=
  (stepMin_apply (k0_pay5 a b) acc _ _ _ _ p q).trans (by simp only [prod0_apply])
theorem min1_apply : k0_pay10 a b acc (ix2 p q) = min (acc (ix2 p q)) (⨅ r : Fin 128, a (ix2 p r) * b (ix2 q r)) :=
  (stepMin_apply (k0_pay8 a b) acc _ _ _ _ p q).trans (by simp only [prod1_apply])
theorem min2_apply : k0_pay15 (k0_pay11 b) (k0_pay12 a) acc (ix2 p q)
    = min (acc (ix2 p q)) (⨅ r : Fin 128, a (ix2 p r) * b (ix2 q r)) :=
  (stepMin_apply (k0_pay13 (k0_pay11 b) (k0_pay12 a)) acc _ _ _ _ p q).trans (by simp only [prod2_apply])
theorem min3_apply : k0_pay1 (k0_pay16 a b) acc (ix2 p q) = min (acc (ix2 p q)) (⨅ r : Fin 128, a (ix2 p r) * b (ix2 q r)) :=
  (stepMin_apply (k0_pay16 a b) acc _ _ _ _ p q).trans (by simp only [prod3_apply])

/-- The -∞ fill, at an entry. -/
theorem fillMax_apply (i : S128x256.Idx) : k0_pay3 (F := Ideal) i = (⊥ : EReal) := by
  unfold k0_pay3
  rw [shapeCast_self]
  exact negInf

/-- The +∞ fill, at an entry. -/
theorem fillMin_apply (i : S128x256.Idx) : k0_pay4 (F := Ideal) i = (⊤ : EReal) := by
  unfold k0_pay4
  rw [shapeCast_self]
  exact posInf

/-- The product of entry `(p, k)` of x and entry `(q, k)` of w, as a function of the contraction position `k`. -/
def prodAt (x0 : Vec Ideal S128x512 .f32) (x1 : Vec Ideal S256x512 .f32) (p : Fin 128) (q : Fin 256) (k : Fin 512) : EReal :=
  x0 (ix2 p k) * x1 (ix2 q k)

/-- The first scratch ends, at `(p, q)`, at the supremum over all 512 positions. -/
theorem maxChain_apply (x0 : Vec Ideal S128x512 .f32) (x1 : Vec Ideal S256x512 .f32) :
    maxChain x0 x1 (ix2 p q) = ⨆ k : Fin 512, prodAt x0 x1 p q k := by
  unfold maxChain
  rw [max3_apply, max2_apply, max1_apply, max0_apply, fillMax_apply]
  exact iSup_runs (prodAt x0 x1 p q)

/-- The second scratch ends, at `(p, q)`, at the infimum over all 512 positions. -/
theorem minChain_apply (x0 : Vec Ideal S128x512 .f32) (x1 : Vec Ideal S256x512 .f32) :
    minChain x0 x1 (ix2 p q) = ⨅ k : Fin 512, prodAt x0 x1 p q k := by
  unfold minChain
  rw [min3_apply, min2_apply, min1_apply, min0_apply, fillMin_apply]
  exact iInf_runs (prodAt x0 x1 p q)

/-- ENTRY `(p, q)` OF THE BLOCK: the supremum plus the infimum over the contraction positions of
    x[p, k] · w[q, k], plus the bias row's entry `q`. -/
theorem out_apply (c : Dev nD) (i : grid0.Coords) (a1 : Memref sig .tc .vmem S128x512 .f32) (h1 : a1.IsWhole) (a2 : Memref sig .tc .vmem S256x512 .f32) (h2 : a2.IsWhole) (a3 : Memref sig .tc .vmem S1x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole)
    (x0 : Vec Ideal S128x512 .f32) (x1 : Vec Ideal S256x512 .f32) (x2 : Vec Ideal S1x256 .f32) :
    out0_A_3 (F := Ideal) c i a1 h1 a2 h2 a3 h3 a4 h4 a5 h5 a6 h6 x0 x1 x2 (ix2 p q)
      = (⨆ k : Fin 512, prodAt x0 x1 p q k) + (⨅ k : Fin 512, prodAt x0 x1 p q k) + x2 (ix2 (0 : Fin 1) q) := by
  rw [out_eq]
  unfold k0_pay2
  rw [addf_apply, addf_apply, broadcastTo_1b_ab_apply, shapeCast_self, maxChain_apply, minChain_apply]

end Cert.KernelIdeal.Block

end
-- ==== Proof.Spec.lean ====
/-
  The function both programs compute, stated once and free of either program: for x of shape [2048, 512], w of shape
  [256, 512] and a bias of 256 entries, over the extended reals,

      out[n, j] = sup_k x[n, k] · w[j, k]  +  inf_k x[n, k] · w[j, k]  +  bias[j]        (k over the 512 positions).
-/
import Idealize.ShloMosaic.PureOps.Ideal
import Idealize.ShloMosaic.Lib.ValueIdx
import Mathlib.Order.CompleteLattice.Basic

noncomputable section

namespace Cert.Spec

open Idealize.ShloMosaic Idealize.ShloMosaic.ValueIdx

/-- The supremum plus the infimum of the products along the contraction axis, plus the bias. -/
def maxMinLayer (x : (⟨2, ![2048, 512]⟩ : Shape).Idx → EReal) (w : (⟨2, ![256, 512]⟩ : Shape).Idx → EReal)
    (b : (⟨1, ![256]⟩ : Shape).Idx → EReal) : (⟨2, ![2048, 256]⟩ : Shape).Idx → EReal :=
  fun i => (⨆ k : Fin 512, x (ix2 (i 0) k) * w (ix2 (i 1) k)) + (⨅ k : Fin 512, x (ix2 (i 0) k) * w (ix2 (i 1) k))
    + b (ix1 (i 1))

end Cert.Spec

end
-- ==== Proof.Result.lean ====
/-
  From the blocks to the array: what the kernel's result array holds after the run.

  The grid has 16 points; point t stages rows 128·t … 128·t + 127 of x, all of w and the bias row, and writes back
  rows 128·t … 128·t + 127 of the result. So entry (r, j) of what point t writes back depends on row 128·t + r of x,
  row j of w and entry j of the bias, and is the layer's value at (128·t + r, j). The 16 row blocks tile the 2048 rows,
  so the result array ends holding the layer's value everywhere.
-/
import proofs.«105874_j64785286692872_1_alg».proof.Proof.Gen.KernelIdeal.Value
import proofs.«105874_j64785286692872_1_alg».proof.Proof.Block
import proofs.«105874_j64785286692872_1_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Block Cert.Spec

variable (m : (ℓ : Loc nD τ sig) → Buf (Elt Ideal) ℓ) (ρ : Dev nD → PrngReg)

/-- Where each window's block sits at point `t`: x's row block moves with the result's, its column block is the
    one there is; w and the bias are one block each; the result has one column block and at most 16 row blocks. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every one of the 16 row blocks of the result is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- The bias as the region finds it: the 256 entries laid out as one row. -/
theorem bias_row (c : Dev nD) : (V m c main_v0 : S1x256.Idx → Ideal .f32)
    = shapeCast S1x256 (m ((c : Thread nD τ).loc main_arg2)) Facts₀.shapeCasts_S256_S1x256 := by
  dsimp only [Gen.V, Gen.hostOps0]; after_results; rfl

/-- An entry of the block from entries of the arrays: if row `j 0` of the x block is row `i 0` of x, row `j 1` of
    the w block is row `i 1` of w, and entry `j 1` of the bias row is entry `i 1` of the bias, then entry `j` of
    the block is the layer's value at `i`. -/
theorem entry_eq (c : Dev nD) (g : grid0.Coords) (a1 : Memref sig .tc .vmem S128x512 .f32) (h1 : a1.IsWhole) (a2 : Memref sig .tc .vmem S256x512 .f32) (h2 : a2.IsWhole) (a3 : Memref sig .tc .vmem S1x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole)
    (x0 : Vec Ideal S128x512 .f32) (x1 : Vec Ideal S256x512 .f32) (x2 : Vec Ideal S1x256 .f32)
    (X : S2048x512.Idx → EReal) (W : S256x512.Idx → EReal) (B : S256.Idx → EReal) (j : S128x256.Idx) (i : S2048x256.Idx)
    (hx : ∀ k : Fin 512, x0 (ix2 (j 0) k) = X (ix2 (i 0) k)) (hw : ∀ k : Fin 512, x1 (ix2 (j 1) k) = W (ix2 (i 1) k))
    (hb : x2 (ix2 (0 : Fin 1) (j 1)) = B (ix1 (i 1))) :
    out0_A_3 (F := Ideal) c g a1 h1 a2 h2 a3 h3 a4 h4 a5 h5 a6 h6 x0 x1 x2 j = maxMinLayer X W B i := by
  obtain ⟨p, q, rfl⟩ : ∃ (p : Fin 128) (q : Fin 256), j = ix2 p q := ⟨j 0, j 1, eq_ix2 j⟩
  rw [out_apply]
  unfold maxMinLayer prodAt
  have hx' : ∀ k : Fin 512, x0 (ix2 p k) = X (ix2 (i 0) k) := hx
  have hw' : ∀ k : Fin 512, x1 (ix2 q k) = W (ix2 (i 1) k) := hw
  have hb' : x2 (ix2 (0 : Fin 1) q) = B (ix1 (i 1)) := hb
  simp only [hx', hw', hb']

/-- WHAT POINT `t` WRITES BACK is block `t` of the layer's value of the argument arrays. -/
theorem flushed_eq (c : Dev nD) (t : Fin cfg0.N) :
    (dats m 0 c).flushed 3 t = ((cfg0.win 3).blk t).view.read (Elt Ideal)
      (maxMinLayer (m ((c : Thread nD τ).loc main_arg0)) (m ((c : Thread nD τ).loc main_arg1)) (m ((c : Thread nD τ).loc main_arg2))) := by
  rw [Cert.KernelIdeal.Value.flushed3_A]
  obtain ⟨e00, e01, e10, e11, e20, e21, e31, e30⟩ := idx_facts t
  funext j
  show out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) j
    = maxMinLayer (m ((c : Thread nD τ).loc main_arg0)) (m ((c : Thread nD τ).loc main_arg1)) (m ((c : Thread nD τ).loc main_arg2)) (((cfg0.win 3).blk t).view.emb j)
  refine entry_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
    (m ((c : Thread nD τ).loc main_arg0)) (m ((c : Thread nD τ).loc main_arg1)) (m ((c : Thread nD τ).loc main_arg2)) j (((cfg0.win 3).blk t).view.emb j) ?_ ?_ ?_
  · intro k
    show V m c main_arg0 (((cfg0.win 0).blk t).view.emb (ix2 (j 0) k)) = m ((c : Thread nD τ).loc main_arg0) (ix2 ((((cfg0.win 3).blk t).view.emb j) 0) k)
    rw [V_main_arg0]
    refine congrArg _ (funext fun a => Fin.ext ?_)
    match a with
    | ⟨0, _⟩ => show win0_0.index t (0 : Fin 2) * 128 + 1 * (j 0).val = win0_3.index t (0 : Fin 2) * 128 + 1 * (j 0).val; rw [e00]
    | ⟨1, _⟩ => show win0_0.index t (1 : Fin 2) * 512 + 1 * k.val = k.val; rw [e01]; omega
  · intro k
    show V m c main_arg1 (((cfg0.win 1).blk t).view.emb (ix2 (j 1) k)) = m ((c : Thread nD τ).loc main_arg1) (ix2 ((((cfg0.win 3).blk t).view.emb j) 1) k)
    rw [V_main_arg1]
    refine congrArg _ (funext fun a => Fin.ext ?_)
    match a with
    | ⟨0, _⟩ => show win0_1.index t (0 : Fin 2) * 256 + 1 * (j 1).val = win0_3.index t (1 : Fin 2) * 256 + 1 * (j 1).val; rw [e10, e31]
    | ⟨1, _⟩ => show win0_1.index t (1 : Fin 2) * 512 + 1 * k.val = k.val; rw [e11]; omega
  · show V m c main_v0 (((cfg0.win 2).blk t).view.emb (ix2 (0 : Fin 1) (j 1))) = m ((c : Thread nD τ).loc main_arg2) (ix1 ((((cfg0.win 3).blk t).view.emb j) 1))
    refine (congrFun (bias_row m c) _).trans ?_
    refine shapeCast_apply (s := S256) (t := S1x256) _ _ _ (ix1 ((((cfg0.win 3).blk t).view.emb j) 1)) ?_
    refine (Shape.rowMajor_val_one (d := ![256]) _).trans (Eq.trans ?_ (Shape.rowMajor_val_two (d := ![1, 256]) _).symm)
    show win0_3.index t (1 : Fin 2) * 256 + 1 * (j 1).val = (win0_2.index t (0 : Fin 2) * 1 + 1 * 0) * 256 + (win0_2.index t (1 : Fin 2) * 256 + 1 * (j 1).val)
    rw [e31, e20, e21]; omega

/-- An index of the result is in point `t`'s block iff each coordinate is in the block's range on its axis. -/
theorem mem_blk (t : Fin cfg0.N) (i : S2048x256.Idx) :
    i ∈ ((cfg0.win 3).blk t).view.set ↔ ∀ a : Fin 2, win0_3.index t a * S128x256.size a ≤ (i a).val ∧ (i a).val < win0_3.index t a * S128x256.size a + S128x256.size a := by
  show i ∈ ((View.whole main_v1).slice (win0_3.rect t)).set ↔ _
  rw [View.set_slice_whole, Rect.mem_set_unit]
  exact Iff.rfl

/-- Every index of the result lies in the block of the point that owns its row block. -/
theorem covered (i : S2048x256.Idx) : ∃ t : Fin cfg0.N, (cfg0.win 3).flush t = true ∧ i ∈ ((cfg0.win 3).blk t).view.set := by
  have hi0 : (i 0).val < 2048 := (i 0).isLt
  have hi1 : (i 1).val < 256 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 256 ≤ (i 1).val ∧ (i 1).val < win0_3.index t (1 : Fin 2) * 256 + 256; omega

/-- THE RESULT ARRAY after the run: the layer's value of the argument arrays. -/
theorem final (c : Dev nD) : (dats m 0 c).arrAt 3 cfg0.N
    = maxMinLayer (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution ends with the result array at the layer's value of the arguments,
    and the arguments unchanged. -/
theorem run : θ_run defs (onTc (τ := τ) (main (F := Ideal))) ⟨m, fun _ => 0, ρ⟩ fun r => ∀ c : Dev nD,
      r.2.mem ((c : Thread nD τ).loc main_v1)
        = maxMinLayer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Result

end
-- ==== Proof.Reference.lean ====
/-
  The reference computes the same function. It lays x out as [2048, 512, 1] and the transpose of w as [1, 512, 256],
  broadcasts both to [2048, 512, 256] and multiplies, so entry (n, k, j) of the product is x[n, k] · w[j, k]. It then
  takes the maximum over k from -∞ and the minimum over k from +∞, which over the extended reals are the supremum and
  the infimum over the 512 positions, adds the two, and adds the bias broadcast along the rows.
-/
import proofs.«105874_j64785286692872_1_alg».proof.Proof.Gen.ReferenceIdeal.Read
import proofs.«105874_j64785286692872_1_alg».proof.Proof.Extremum
import proofs.«105874_j64785286692872_1_alg».proof.Proof.Spec
import Idealize.ShloMosaic.Lib.ValueIdx
import Idealize.ShloMosaic.PureOps.Ideal.Laws
import Idealize.ShloMosaic.PureOps.Reduce

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec Cert.Extremum

variable (x0 : (⟨S2048x512, .f32⟩ : BufTy).Contents (Elt Ideal)) (x1 : (⟨S256x512, .f32⟩ : BufTy).Contents (Elt Ideal))
  (x2 : (⟨S256, .f32⟩ : BufTy).Contents (Elt Ideal))

/-- The contraction axis is the middle one of [2048, 512, 256]. -/
theorem hred : S2048x512x256.Reduces [1] S2048x256 := by decide

/-- Over result entry `i = (n, j)`, position `k` sits at (n, k, j): the x operand is read there at (n, k), -/
theorem at_x (i : S2048x256.Idx) (k : Fin 512) : idx_main_v0 (idx_main_v3 (hred.lift i k)) = ix2 (i 0) k :=
  funext fun a => Fin.ext (by
    match a with
    | ⟨0, _⟩ => rfl
    | ⟨1, _⟩ => rfl)

/-- and the w operand, through the transpose, at (j, k). -/
theorem at_w (i : S2048x256.Idx) (k : Fin 512) : idx_main_v1 (idx_main_v2 (idx_main_v4 (hred.lift i k))) = ix2 (i 1) k :=
  funext fun a => Fin.ext (by
    match a with
    | ⟨0, _⟩ => rfl
    | ⟨1, _⟩ => rfl)

/-- The product array over `(n, j)` at position `k` is x[n, k] · w[j, k]. -/
theorem prod_apply (i : S2048x256.Idx) (k : Fin 512) :
    val_main_v5 (F := Ideal) x0 x1 (hred.lift i k) = x0 (ix2 (i 0) k) * x1 (ix2 (i 1) k) := by
  rw [val_main_v5_apply, val_main_v3_apply, val_main_v0_apply, val_main_v4_apply, val_main_v2_apply, val_main_v1_apply,
    at_x, at_w]
  rfl

/-- The maximum over the contraction axis, from -∞, is the supremum over the 512 positions. -/
theorem max_apply (i : S2048x256.Idx) :
    val_main_v6 (F := Ideal) x0 x1 i = ⨆ k : Fin 512, x0 (ix2 (i 0) k) * x1 (ix2 (i 1) k) := by
  unfold val_main_v6
  rw [Host.reduce_eq_fold_single FloatOps.maximumf _ _ reducesTo_S2048x512x256_S2048x256_d1 hred h_S_ i]
  exact (fold_max_negInf _).trans (iSup_congr fun k => prod_apply x0 x1 i k)

/-- The minimum over the contraction axis, from +∞, is the infimum over the 512 positions. -/
theorem min_apply (i : S2048x256.Idx) :
    val_main_v7 (F := Ideal) x0 x1 i = ⨅ k : Fin 512, x0 (ix2 (i 0) k) * x1 (ix2 (i 1) k) := by
  unfold val_main_v7
  rw [Host.reduce_eq_fold_single FloatOps.minimumf _ _ reducesTo_S2048x512x256_S2048x256_d1 hred h_S_ i]
  exact (fold_min_posInf _).trans (iInf_congr fun k => prod_apply x0 x1 i k)

/-- The bias broadcast along the rows reads, at `(n, j)`, the bias's entry `j`. -/
theorem bias_apply (i : S2048x256.Idx) : val_main_v10 (F := Ideal) x2 i = x2 (ix1 (i 1)) := by
  rw [val_main_v10_apply, val_main_v9_apply]
  refine congrArg x2 (funext fun a => Fin.ext ?_)
  match a with
  | ⟨0, _⟩ => rfl

/-- THE REFERENCE'S RESULT is the layer's value of its arguments. -/
theorem result_eq : val_main_v11 (F := Ideal) x0 x1 x2 = maxMinLayer x0 x1 x2 := by
  funext i
  rw [val_main_v11_apply, val_main_v8_apply, max_apply, min_apply, bias_apply]
  rfl

end Cert.ReferenceIdeal.RefValue

end
-- ==== Proof.lean ====
/-
  The certificate of a max-plus-min dense layer against its jnp reference: for x of shape [2048, 512], w of shape
  [256, 512] and a bias of 256 entries,

      out[n, j] = max_k x[n, k] · w[j, k]  +  min_k x[n, k] · w[j, k]  +  bias[j].

  The kernel walks the 2048 rows in 16 blocks of 128; for each block it keeps a running maximum started at -∞ and a
  running minimum started at +∞, and folds into them, run after run, the maximum and the minimum of the products over
  four runs of 128 contraction positions; it then adds the two and the bias. The reference forms all the products at
  once and reduces over the 512 positions in one go. Over the extended reals a maximum from -∞ is a supremum and a
  minimum from +∞ an infimum, and the supremum over the 512 positions is the running maximum of the four runs'
  suprema (dually for the infimum): an identity of the order alone, so no input need be finite for it. Both sides
  then add in the same order, (sup + inf) + bias.

  The modules: the order identity; the layer as one function of the three arrays; the kernel's block at an entry;
  the blocks tiling the result array; the reference's stages read at an entry; and here the five claims. The three
  frames are the generated runs; the idealization rewrote nothing, so it is preserved trivially.
-/
import proofs.«105874_j64785286692872_1_alg».proof.Defs
import proofs.«105874_j64785286692872_1_alg».proof.Proof.Gen.Kernel
import proofs.«105874_j64785286692872_1_alg».proof.Proof.Gen.Kernel.Skeleton
import proofs.«105874_j64785286692872_1_alg».proof.Proof.Gen.Kernel.Launch
import proofs.«105874_j64785286692872_1_alg».proof.Proof.Gen.Kernel.Points
import proofs.«105874_j64785286692872_1_alg».proof.Proof.Gen.Kernel.Frame
import proofs.«105874_j64785286692872_1_alg».proof.Proof.Gen.KernelIdeal
import proofs.«105874_j64785286692872_1_alg».proof.Proof.Gen.KernelIdeal.Skeleton
import proofs.«105874_j64785286692872_1_alg».proof.Proof.Gen.KernelIdeal.Launch
import proofs.«105874_j64785286692872_1_alg».proof.Proof.Gen.KernelIdeal.Points
import proofs.«105874_j64785286692872_1_alg».proof.Proof.Gen.KernelIdeal.Frame
import proofs.«105874_j64785286692872_1_alg».proof.Proof.Gen.ReferenceIdeal
import proofs.«105874_j64785286692872_1_alg».proof.Proof.Gen.Pre_finite_inputs
import proofs.«105874_j64785286692872_1_alg».proof.Proof.Gen.KernelIdeal.Value
import proofs.«105874_j64785286692872_1_alg».proof.Proof.Gen.ReferenceIdeal.Run
import proofs.«105874_j64785286692872_1_alg».proof.Proof.Gen.ReferenceIdeal.Read
import proofs.«105874_j64785286692872_1_alg».proof.Proof.Result
import proofs.«105874_j64785286692872_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the three arguments, the kernel's result array and the
    reference's both end at the layer's value of those arguments. -/
theorem algebraic : Cert.algebraic_KernelIdeal_ReferenceIdeal := by
  intro m ρ m' ρ' _ hagree
  refine ⟨fun c => Cert.Spec.maxMinLayer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
